-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_keep" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S100000x128 .f32) (main_arg5 : FVec F S64x128 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x128 .f32 := Host.absf main_arg4
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩

abbrev nBuf : Space → Nat
  | .hbm => 26
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x128, .f32⟩
  | .hbm, ⟨5, _⟩ => ⟨S64x128, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x64, .f32⟩
  | .hbm, ⟨24, _⟩ => ⟨S1x64, .f32⟩
  | .hbm, ⟨25, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S64x128_S128x64_1_0 : S64x128.Transposes [1, 0] S128x64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  natLt_1_32 : 1 < 32
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x128, .f32⟩
  | .hbm, ⟨5, _⟩ => ⟨S64x128, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .i1⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S128x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KeepScale.lean ====
/-
  The dropout scale, as numbers. A kept element is multiplied by 1/(1 - p) with p = 0.1 held in single precision:
  the reference divides the 0/1 mask by the word 0x3F666666, which encodes D = 7549747/8388608 (the float nearest
  0.9), and the kernel multiplies the mask by a constant named 1/D = 8388608/7549747. On the extended reals a
  division by a nonzero real is the product with its reciprocal, so the two scaled masks are one number. The mask
  itself is a one-bit comparison result: the reference reads it unsigned, the kernel widens it to 32 bits with
  zeros and reads that signed; both readings give 0 or 1.
-/
import Idealize.ShloMosaic.PureOps.Ideal

noncomputable section

namespace Cert.DropoutLinear

open Idealize.ShloMosaic

/-- The word 0x3F666666 (the float nearest 0.9) denotes the rational 7549747/8388608. -/
theorem ofBits_keepProb : Ideal.ofBits .f32 0x3F666666#32 = ((7549747 / 8388608 : ℝ) : EReal) := by
  simp [Ideal.ofBits, Ideal.ieee, -EReal.coe_mul]; norm_num

/-- A one-bit word widened with zeros to 32 bits, read signed, is the bit read unsigned. -/
theorem bit_widened (b : BitVec 1) : (b.setWidth 32).toInt = (b.toNat : Int) := by
  rcases BitVec.eq_zero_or_eq_one b with rfl | rfl <;> decide

/-- The mask bit divided by D is the widened bit times 1/D. -/
theorem keep_scale (b : BitVec 1) :
    Ideal.div (((b.toNat : ℝ)) : EReal) (Ideal.ofBits .f32 0x3F666666#32)
      = ((((b.setWidth 32).toInt : ℝ)) : EReal) * ((8388608 / 7549747 : ℝ) : EReal) := by
  rw [ofBits_keepProb, Ideal.div_coe (by norm_num : (7549747 / 8388608 : ℝ) ≠ 0), bit_widened]
  have e : (1 / (7549747 / 8388608 : ℝ)) = (8388608 / 7549747 : ℝ) := by norm_num
  rw [e]
  norm_cast

end Cert.DropoutLinear

end
-- ==== Proof.LinearSpec.lean ====
/-
  The function both programs compute after the sparse aggregation, index by index on the extended reals:
  with agg the aggregated features [100000, 128], u the dropout draws [100000, 128], wt the transposed weight
  [128, 64] and b the bias [64],

      out[r, j] = (sum over k < 128 of (agg[r, k] * keep(u[r, k])) * wt[k, j]) + b[j],

  where keep(u) = [u >= 0.1] / D is the 0/1 mask divided by D = 7549747/8388608 (the float nearest 0.9); the
  comparison is against the word 0x3DCCCCCD, the float nearest 0.1, which both programs carry.
-/
import proofs.«156384_j3135326126431_1_alg».proof.Proof.KeepScale
import Idealize.ShloMosaic.Lib.ValueIdx

noncomputable section

open scoped BigOperators

namespace Cert.DropoutLinear

open Idealize.ShloMosaic Idealize.ShloMosaic.ValueIdx

/-- The dropout factor of one draw: 1/D where the draw is at least 0.1, and 0 elsewhere. -/
def keepFactor (u : EReal) : EReal :=
  Ideal.div ((((Ideal.cmp .oge u (Ideal.ofBits .f32 0x3DCCCCCD#32)).toNat : ℝ)) : EReal) (Ideal.ofBits .f32 0x3F666666#32)

/-- The same factor as the kernel spells it: the mask bit widened to a 32-bit word, read signed, times 1/D. -/
theorem keepFactor_eq_mul (u : EReal) :
    keepFactor u = (((((Ideal.cmp .oge u (Ideal.ofBits .f32 0x3DCCCCCD#32)).setWidth 32).toInt : ℝ)) : EReal)
      * ((8388608 / 7549747 : ℝ) : EReal) :=
  keep_scale _

/-- Dropout then the dense layer, one output element. -/
def dropLinear (agg u : (⟨2, ![100000, 128]⟩ : Shape).Idx → EReal) (wt : (⟨2, ![128, 64]⟩ : Shape).Idx → EReal)
    (b : (⟨1, ![64]⟩ : Shape).Idx → EReal) : (⟨2, ![100000, 64]⟩ : Shape).Idx → EReal :=
  fun i => (∑ k : Fin 128, (agg (ix2 (i 0) k) * keepFactor (u (ix2 (i 0) k))) * wt (ix2 k (i 1))) + b (ix1 (i 1))

end Cert.DropoutLinear

end
-- ==== Proof.KernelPayload.lean ====
/-
  One grid point of the kernel, read at an index. The body loads a 10000-row block of the aggregated features and of
  the dropout draws, the whole transposed weight and the bias row, and stores
      (agg * (mask(u) * c)) · wt + bias
  where the matrix product accumulates from zero. Read at row p and column q of the block this is the sum over the
  128 contracted coordinates of (agg[p, k] * keep(u[p, k])) * wt[k, q], plus bias[0, q], once the named constant c
  is read as 1/D.
-/
import proofs.«156384_j3135326126431_1_alg».proof.Proof.Gen.KernelIdeal.Skeleton
import proofs.«156384_j3135326126431_1_alg».proof.Proof.LinearSpec
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.KernelIdeal.Hand

open Cert.KernelIdeal Cert.KernelIdeal.Gen Cert.DropoutLinear Idealize.ShloMosaic Idealize.ShloMosaic.ValueIdx

/-- The kernel's named scale denotes 1/D = 8388608/7549747, by the certificate's table. -/
theorem inv_keep : Named.named (F := Ideal) κ "inv_keep" (φ := .f32) 0x3F8E38E4#32 = ((8388608 / 7549747 : ℝ) : EReal) :=
  IdealRules.named_const.ideal_named_scalar _ _ _ _ rfl

/-! The block product's operand indices: the left operand is read at (row, k), the right at (k, column). -/

theorem lhs_blockDot_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_blockDot_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_blockDot_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_blockDot_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block's matrix product from a zero accumulator, at (p, q): the sum over k of lhs[p, k] * rhs[k, q]. -/
theorem blockDot_apply (l : FVec Ideal S10000x128 .f32) (r : FVec Ideal S128x64 .f32) (p : Fin 10000) (q : Fin 64) :
    matmul dot_S10000x128_S128x64_S10000x64_1_0_0_1_n_n none l r (constant S10000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]

/-- The bias row spread down the block's rows, at (p, q), is the row's entry q. -/
theorem biasRows_apply (x3 : FVec Ideal S1x64 .f32) (p : Fin 10000) (q : Fin 64) :
    broadcastTo S10000x64 x3 broadcasts_S1x64_S10000x64 (ix2 p q) = x3 (ix2 (0 : Fin 1) q) := by
  refine broadcastTo_apply _ _ _ _ fun a => ?_
  match a with
  | ⟨0, _⟩ => rfl
  | ⟨1, _⟩ => rfl

/-- What one grid point stores, at row p and column q of its block. -/
theorem pay_apply (xu xa : Vec Ideal S10000x128 .f32) (xw : Vec Ideal S128x64 .f32) (xb : Vec Ideal S1x64 .f32)
    (p : Fin 10000) (q : Fin 64) :
    k0_pay1 (F := Ideal) xu xa xw xb (ix2 p q)
      = (∑ k : Fin 128, (xa (ix2 p k) * keepFactor (xu (ix2 p k))) * xw (ix2 k q)) + xb (ix2 (0 : Fin 1) q) := by
  unfold k0_pay1
  simp only [shapeCast_self]
  rw [addf_apply, blockDot_apply, biasRows_apply]
  refine congrArg (· + xb (ix2 (0 : Fin 1) q)) (Finset.sum_congr rfl fun k _ => ?_)
  rw [keepFactor_eq_mul, ← inv_keep]
  rfl

/-- The same with each loaded block named by what it reads off an array: if the blocks hold row r of the features and
    of the draws at the block's row p, and the weight and the bias row as they are, the stored element is the
    whole-array function at (r, q). -/
theorem point_of_reads (xu xa : Vec Ideal S10000x128 .f32) (xw : Vec Ideal S128x64 .f32) (xb : Vec Ideal S1x64 .f32)
    (A U : S100000x128.Idx → EReal) (W : S128x64.Idx → EReal) (B : S1x64.Idx → EReal)
    (p : Fin 10000) (q : Fin 64) (r : Fin 100000)
    (ha : ∀ k : Fin 128, xa (ix2 p k) = A (ix2 r k)) (hu : ∀ k : Fin 128, xu (ix2 p k) = U (ix2 r k))
    (hw : ∀ k : Fin 128, xw (ix2 k q) = W (ix2 k q)) (hb : xb (ix2 (0 : Fin 1) q) = B (ix2 (0 : Fin 1) q)) :
    k0_pay1 (F := Ideal) xu xa xw xb (ix2 p q)
      = dropLinear A U W (fun j => B (ix2 (0 : Fin 1) (j 0))) (ix2 r q) := by
  rw [pay_apply, hb]
  unfold dropLinear
  refine congrArg (· + B (ix2 (0 : Fin 1) q)) (Finset.sum_congr rfl fun k _ => ?_)
  rw [ha k, hu k, hw k]

end Cert.KernelIdeal.Hand

end
-- ==== Proof.KernelBlocks.lean ====
/-
  From the grid's blocks to the whole result array. Grid point t (0 ≤ t < 10) reads rows 10000·t … 10000·t + 9999 of
  the aggregated features and of the dropout draws, the whole transposed weight and the whole bias row, and writes
  back rows 10000·t … 10000·t + 9999 of the result. So what point t writes is block t of ONE function of the arrays as
  the region finds them, `dropLinear`, and the ten blocks tile the result: the result array ends holding that function.
-/
import proofs.«156384_j3135326126431_1_alg».proof.Proof.Gen.KernelIdeal.Value
import proofs.«156384_j3135326126431_1_alg».proof.Proof.KernelPayload
import Idealize.ShloMosaic.Lib.Pipeline.Value
import Idealize.ShloMosaic.Lib.Tactic

noncomputable section

open scoped BigOperators

namespace Cert.KernelIdeal.Hand

open Cert.KernelIdeal Cert.KernelIdeal.Gen Cert.KernelIdeal.Value Cert.DropoutLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the ten grid points: the two row-blocked inputs and the output sit at block row t,
    the weight and the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input arrays as the region finds them, each at its literal type. -/
abbrev aggArr (c : Dev nD) : S100000x128.Idx → EReal := V m c main_v12
abbrev drawArr (c : Dev nD) : S100000x128.Idx → EReal := V m c main_arg4
abbrev wtArr (c : Dev nD) : S128x64.Idx → EReal := V m c main_v13
abbrev biasArr (c : Dev nD) : S1x64.Idx → EReal := V m c main_v14

/-- The whole-array function, of the arrays as the region finds them. -/
abbrev result (c : Dev nD) : S100000x64.Idx → EReal :=
  dropLinear (aggArr m c) (drawArr m c) (wtArr m c) (fun j => biasArr m c (ix2 (0 : Fin 1) (j 0)))

/-! Reading an array through a window's block at point t. The array is a variable here: nothing below looks
    inside the contents the region finds. -/

/-- Window 0's block at point t, read at x, is the array at row 10000·t + x₀, column x₁. -/
theorem read_rows0 (t : Fin cfg0.N) (X : S100000x128.Idx → EReal) (x : S10000x128.Idx) (i : S100000x128.Idx)
    (h0 : (i 0).val = t.val * 10000 + (x 0).val) (h1 : (i 1).val = (x 1).val) :
    ((cfg0.win 0).blk t).view.read (Elt Ideal) X x = X i := by
  obtain ⟨e00, e01, -⟩ := idx_facts t
  rw [View.read_apply]
  show X _ = X i
  refine congrArg X (funext fun a => Fin.ext ?_)
  match a with
  | ⟨0, _⟩ => show win0_0.index t (0 : Fin 2) * 10000 + 1 * (x 0).val = (i 0).val; rw [e00, h0]; omega
  | ⟨1, _⟩ => show win0_0.index t (1 : Fin 2) * 128 + 1 * (x 1).val = (i 1).val; rw [e01, h1]; omega

/-- Window 1's block at point t, likewise. -/
theorem read_rows1 (t : Fin cfg0.N) (X : S100000x128.Idx → EReal) (x : S10000x128.Idx) (i : S100000x128.Idx)
    (h0 : (i 0).val = t.val * 10000 + (x 0).val) (h1 : (i 1).val = (x 1).val) :
    ((cfg0.win 1).blk t).view.read (Elt Ideal) X x = X i := by
  obtain ⟨-, -, e10, e11, -⟩ := idx_facts t
  rw [View.read_apply]
  show X _ = X i
  refine congrArg X (funext fun a => Fin.ext ?_)
  match a with
  | ⟨0, _⟩ => show win0_1.index t (0 : Fin 2) * 10000 + 1 * (x 0).val = (i 0).val; rw [e10, h0]; omega
  | ⟨1, _⟩ => show win0_1.index t (1 : Fin 2) * 128 + 1 * (x 1).val = (i 1).val; rw [e11, h1]; omega

/-- Window 2's one block is its whole array. -/
theorem read_whole2 (t : Fin cfg0.N) (X : S128x64.Idx → EReal) (x : S128x64.Idx) :
    ((cfg0.win 2).blk t).view.read (Elt Ideal) X x = X x := by
  obtain ⟨-, -, -, -, e20, e21, -⟩ := idx_facts t
  rw [View.read_apply]
  show X _ = X x
  refine congrArg X (funext fun a => Fin.ext ?_)
  match a with
  | ⟨0, _⟩ => show win0_2.index t (0 : Fin 2) * 128 + 1 * (x 0).val = (x 0).val; rw [e20]; omega
  | ⟨1, _⟩ => show win0_2.index t (1 : Fin 2) * 64 + 1 * (x 1).val = (x 1).val; rw [e21]; omega

/-- Window 3's one block is its whole array. -/
theorem read_whole3 (t : Fin cfg0.N) (X : S1x64.Idx → EReal) (x : S1x64.Idx) :
    ((cfg0.win 3).blk t).view.read (Elt Ideal) X x = X x := by
  obtain ⟨-, -, -, -, -, -, e30, e31, -⟩ := idx_facts t
  rw [View.read_apply]
  show X _ = X x
  refine congrArg X (funext fun a => Fin.ext ?_)
  match a with
  | ⟨0, _⟩ => show win0_3.index t (0 : Fin 2) * 1 + 1 * (x 0).val = (x 0).val; rw [e30]; omega
  | ⟨1, _⟩ => show win0_3.index t (1 : Fin 2) * 64 + 1 * (x 1).val = (x 1).val; rw [e31]; omega

/-- The output window's block at point t, read at x, is the array at row 10000·t + x₀, column x₁. -/
theorem read_out (t : Fin cfg0.N) (G : S100000x64.Idx → EReal) (x : S10000x64.Idx) (i : S100000x64.Idx)
    (h0 : (i 0).val = t.val * 10000 + (x 0).val) (h1 : (i 1).val = (x 1).val) :
    ((cfg0.win 4).blk t).view.read (Elt Ideal) G x = G i := by
  obtain ⟨-, -, -, -, -, -, -, -, e40, e41⟩ := idx_facts t
  rw [View.read_apply]
  show G _ = G i
  refine congrArg G (funext fun a => Fin.ext ?_)
  match a with
  | ⟨0, _⟩ => show win0_4.index t (0 : Fin 2) * 10000 + 1 * (x 0).val = (i 0).val; rw [e40, h0]; omega
  | ⟨1, _⟩ => show win0_4.index t (1 : Fin 2) * 64 + 1 * (x 1).val = (i 1).val; rw [e41, h1]; omega

/-- The output window's blocks are whole: what a write-back writes of a staging buffer's contents is all of it. -/
theorem cut_out (t : Fin cfg0.N) (Y : S10000x64.Idx → EReal) (x : S10000x64.Idx) :
    (cfg0.win 4).cut (grid0.coords t) Y x = Y x := rfl

/-- Block t of the aggregated features is rows 10000·t … of the array. -/
theorem aggBlk_apply (c : Dev nD) (t : Fin cfg0.N) (x : S10000x128.Idx) (i : S100000x128.Idx)
    (h0 : (i 0).val = t.val * 10000 + (x 0).val) (h1 : (i 1).val = (x 1).val) :
    (iblk m c 0 t : Vec Ideal S10000x128 .f32) x = aggArr m c i := by
  unfold iblk
  exact read_rows0 t (V m c (Pipeline.arrRef spec0 0)) x i h0 h1

/-- Block t of the dropout draws is rows 10000·t … of the array. -/
theorem drawBlk_apply (c : Dev nD) (t : Fin cfg0.N) (x : S10000x128.Idx) (i : S100000x128.Idx)
    (h0 : (i 0).val = t.val * 10000 + (x 0).val) (h1 : (i 1).val = (x 1).val) :
    (iblk m c 1 t : Vec Ideal S10000x128 .f32) x = drawArr m c i := by
  unfold iblk
  exact read_rows1 t (V m c (Pipeline.arrRef spec0 1)) x i h0 h1

/-- The weight's one block is the whole transposed weight. -/
theorem wtBlk_apply (c : Dev nD) (t : Fin cfg0.N) (x : S128x64.Idx) :
    (iblk m c 2 t : Vec Ideal S128x64 .f32) x = wtArr m c x := by
  unfold iblk
  exact read_whole2 t (V m c (Pipeline.arrRef spec0 2)) x

/-- The bias row's one block is the whole row. -/
theorem biasBlk_apply (c : Dev nD) (t : Fin cfg0.N) (x : S1x64.Idx) :
    (iblk m c 3 t : Vec Ideal S1x64 .f32) x = biasArr m c x := by
  unfold iblk
  exact read_whole3 t (V m c (Pipeline.arrRef spec0 3)) x

/-- What point t stores at (p, q) is the whole-array function at row r = 10000·t + p, column q. -/
theorem point_apply (c : Dev nD) (t : Fin cfg0.N) (p : Fin 10000) (q : Fin 64) (r : Fin 100000)
    (hr : r.val = t.val * 10000 + p.val) :
    k0_pay1 (F := Ideal) (iblk m c 1 t) (iblk m c 0 t) (iblk m c 2 t) (iblk m c 3 t) (ix2 p q)
      = result m c (ix2 r q) :=
  point_of_reads (iblk m c 1 t) (iblk m c 0 t) (iblk m c 2 t) (iblk m c 3 t)
    (aggArr m c) (drawArr m c) (wtArr m c) (biasArr m c) p q r
    (fun k => aggBlk_apply m c t (ix2 p k) (ix2 r k) hr rfl)
    (fun k => drawBlk_apply m c t (ix2 p k) (ix2 r k) hr rfl)
    (fun k => wtBlk_apply m c t (ix2 k q))
    (biasBlk_apply m c t (ix2 (0 : Fin 1) q))

/-- What point t writes back at an index of its block, against block t of the whole-array function there. -/
theorem point_eq (c : Dev nD) (t : Fin cfg0.N) (j : S10000x64.Idx) :
    (cfg0.win 4).cut (grid0.coords t)
        (k0_pay1 (F := Ideal) (iblk m c 1 t) (iblk m c 0 t) (iblk m c 2 t) (iblk m c 3 t)) j
      = ((cfg0.win 4).blk t).view.read (Elt Ideal) (result m c) j := by
  obtain ⟨p, q, rfl⟩ : ∃ (p : Fin 10000) (q : Fin 64), j = ix2 p q := ⟨j 0, j 1, eq_ix2 j⟩
  have hN : cfg0.N = 10 := N_0
  have hr : t.val * 10000 + p.val < 100000 := by have := t.isLt; have := p.isLt; omega
  refine (cut_out t (k0_pay1 (F := Ideal) (iblk m c 1 t) (iblk m c 0 t) (iblk m c 2 t) (iblk m c 3 t)) (ix2 p q)).trans ?_
  refine Eq.trans ?_ (read_out t (result m c) (ix2 p q) (ix2 (n0 := 100000) (n1 := 64) ⟨t.val * 10000 + p.val, hr⟩ q) rfl rfl).symm
  exact point_apply m c t p q ⟨t.val * 10000 + p.val, hr⟩ rfl

/-- WHAT POINT t WRITES BACK is block t of the whole-array function. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz]
  simp only [View.ld_unit_zero (S := S10000x128) hz, View.ld_unit_zero (S := S128x64) hz, View.ld_unit_zero (S := S1x64) hz]
  exact funext fun j => point_eq m c t j

/-- An index of the result is in point t's block iff each coordinate is in the block's range on its axis. -/
theorem mem_blk (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v15).slice (win0_4.rect t)).set ↔ _
  rw [View.set_slice_whole, Rect.mem_set_unit]
  exact Iff.rfl

/-- Row r of the result lies in the block of point r / 10000: the ten blocks tile the array. -/
theorem covered (i : S100000x64.Idx) :
    ∃ t : Fin cfg0.N, (cfg0.win 4).flush t = true ∧ i ∈ ((cfg0.win 4).blk t).view.set := by
  have h0 : (i 0).val < 100000 := (i 0).isLt
  have h1 : (i 1).val < 64 := (i 1).isLt
  have hN : cfg0.N = 10 := N_0
  refine ⟨⟨(i 0).val / 10000, by rw [hN]; omega⟩, flush0_4 _, ?_⟩
  obtain ⟨-, -, -, -, -, -, -, -, e40, e41⟩ := idx_facts ⟨(i 0).val / 10000, by rw [hN]; omega⟩
  rw [mem_blk]
  intro a
  match a with
  | ⟨0, _⟩ =>
    show win0_4.index _ (0 : Fin 2) * 10000 ≤ (i 0).val ∧ (i 0).val < win0_4.index _ (0 : Fin 2) * 10000 + 10000
    rw [e40]; show (i 0).val / 10000 * 10000 ≤ (i 0).val ∧ (i 0).val < (i 0).val / 10000 * 10000 + 10000; omega
  | ⟨1, _⟩ =>
    show win0_4.index _ (1 : Fin 2) * 64 ≤ (i 1).val ∧ (i 1).val < win0_4.index _ (1 : Fin 2) * 64 + 64
    rw [e41]; omega

/-- THE RESULT ARRAY after the run is the whole-array function. -/
theorem final (c : Dev nD) : (dats m 0 c).arrAt 4 cfg0.N = result m c :=
  (dats m 0 c).arrAt_eq_of_cover 4 (result m c) (fun t _ => flushed_eq m c t) covered

end Cert.KernelIdeal.Hand

end
-- ==== Proof.KernelHost.lean ====
/-
  What the region finds in the arrays the host operations before it wrote, as functions of the arguments: the
  aggregated features (gather the rows of x named by the column ids, wrapped once if negative; scale each by its
  edge value; add them into the rows named by the row ids, from zero), the transposed weight, and the bias as a
  one-row array.
-/
import proofs.«156384_j3135326126431_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The sparse aggregation: agg[r] = sum over the edges e with rows[e] = r of vals[e] * x[cols[e]], as the host
    operations spell it. -/
def aggregate (x0 : S100000x128.Idx → EReal) (x1 x2 : IVec S1600000 32) (x3 : S1600000.Idx → EReal) : S100000x128.Idx → EReal :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x1)
    (mulf
      (Host.gather gather_S100000x128_S1600000x1_S1600000x128_1_0_n_n_0_1_1128 x0
        (broadcastInDim S1600000x1 ![0] bcast_S1600000_S1600000x1_0
          (select (cmpi .slt x2 (broadcastInDim S1600000 ![] bcast_S_S1600000 (constantI S_ 32 0#32)))
            (addi x2 (broadcastInDim S1600000 ![] bcast_S_S1600000 (constantI S_ 32 100000#32))) x2)))
      (broadcastInDim S1600000x128 ![0, 1] bcast_S1600000x1_S1600000x128_0_1
        (broadcastInDim S1600000x1 ![0] bcast_S1600000_S1600000x1_0 x3)))

/-- The region finds the aggregation of the arguments in its first operand. -/
theorem V_agg (c : Dev nD) :
    (V m c main_v12 : S100000x128.Idx → EReal)
      = aggregate (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- The region finds the transposed weight in its third operand. -/
theorem V_wt (c : Dev nD) :
    (V m c main_v13 : S128x64.Idx → EReal)
      = transpose S128x64 [1, 0] (m ((c : Thread nD τ).loc main_arg5)) transposes_S64x128_S128x64_1_0 := by
  dsimp only [Gen.V, Gen.hostOps0]
  after_results

/-- The region finds the bias, as one row, in its fourth operand. -/
theorem V_bias (c : Dev nD) :
    (V m c main_v14 : S1x64.Idx → EReal)
      = shapeCast S1x64 (m ((c : Thread nD τ).loc main_arg6)) shapeCasts_S64_S1x64 := by
  dsimp only [Gen.V, Gen.hostOps0]
  after_results
  rfl

/-- The one-row bias at column q is the bias at q. -/
theorem biasRow_apply (x : S64.Idx → EReal) (q : Fin 64) :
    shapeCast S1x64 x shapeCasts_S64_S1x64 (ix2 (0 : Fin 1) q) = x (ix1 q) := by
  refine shapeCast_apply _ _ _ _ ?_
  rw [Shape.rowMajor_val_two, Shape.rowMajor_val_one]
  show q.val = 0 * 64 + q.val
  omega

end Cert.KernelIdeal.Hand

end
-- ==== Proof.KernelRun.lean ====
/-
  The kernel's run, read: the result array ends holding `dropLinear` of the aggregation of the arguments, the dropout
  draws, the transposed weight and the bias; the arguments are unchanged.
-/
import proofs.«156384_j3135326126431_1_alg».proof.Proof.KernelBlocks
import proofs.«156384_j3135326126431_1_alg».proof.Proof.KernelHost

noncomputable section

namespace Cert.KernelIdeal.Hand

open Cert.KernelIdeal Cert.KernelIdeal.Gen Cert.KernelIdeal.Value Cert.DropoutLinear
open Idealize.ShloMosaic Idealize.ShloMosaic.TcCoe Idealize.SL.Sem Idealize.ShloMosaic.ValueIdx

variable (m : (ℓ : Loc nD τ sig) → Buf (Elt Ideal) ℓ) (ρ : Dev nD → PrngReg)

/-- The kernel's value as a function of the arguments. -/
abbrev value (c : Dev nD) : S100000x64.Idx → EReal :=
  dropLinear
    (aggregate (m ((c : Thread nD τ).loc main_arg0)) (m ((c : Thread nD τ).loc main_arg1))
      (m ((c : Thread nD τ).loc main_arg2)) (m ((c : Thread nD τ).loc main_arg3)))
    (m ((c : Thread nD τ).loc main_arg4))
    (transpose S128x64 [1, 0] (m ((c : Thread nD τ).loc main_arg5)) transposes_S64x128_S128x64_1_0)
    (m ((c : Thread nD τ).loc main_arg6))

/-- The bias the region finds as one row, read at column j, is the bias argument. -/
theorem bias_eq (c : Dev nD) :
    (fun j : S64.Idx => biasArr m c (ix2 (0 : Fin 1) (j 0))) = m ((c : Thread nD τ).loc main_arg6) := by
  funext j
  show (V m c main_v14 : S1x64.Idx → EReal) (ix2 (0 : Fin 1) (j 0)) = _
  rw [V_bias]
  exact (biasRow_apply (m ((c : Thread nD τ).loc main_arg6)) (j 0)).trans
    (congrArg (m ((c : Thread nD τ).loc main_arg6)) (eq_ix1 j).symm)

/-- The whole-array function of the arrays the region finds is the kernel's value of the arguments. -/
theorem result_eq_value (c : Dev nD) : result m c = value m c := by
  show dropLinear (aggArr m c) (drawArr m c) (wtArr m c) (fun j => biasArr m c (ix2 (0 : Fin 1) (j 0))) = _
  rw [bias_eq]
  show dropLinear (V m c main_v12 : S100000x128.Idx → EReal) (V m c main_arg4 : S100000x128.Idx → EReal)
    (V m c main_v13 : S128x64.Idx → EReal) _ = _
  rw [V_agg, V_wt, V_main_arg4]

/-- The run: the result array at the kernel's value, the arguments unchanged. -/
theorem run : θ_run defs (onTc (τ := τ) (main (F := Ideal))) ⟨m, fun _ => 0, ρ⟩ fun r => ∀ c : Dev nD,
      r.2.mem ((c : Thread nD τ).loc main_v15) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (result_eq_value m c)), (h c).2⟩)
    (run_blocks m ρ)

end Cert.KernelIdeal.Hand

end
-- ==== Proof.RefSpec.lean ====
/-
  The reference, read at an index. Its last operations are: the 0/1 mask of the draws divided by D, times the
  aggregated features, a dot_general with the transposed weight contracting the 128 features, plus the bias
  broadcast down the rows. Index by index that is `dropLinear` of the aggregated features (the program's scatter
  stage), the draws, the transposed weight (its transpose stage) and the bias.
-/
import proofs.«156384_j3135326126431_1_alg».proof.Proof.Gen.ReferenceIdeal.Read
import proofs.«156384_j3135326126431_1_alg».proof.Proof.LinearSpec

noncomputable section

open scoped BigOperators

namespace Cert.ReferenceIdeal.Hand

open Cert.ReferenceIdeal Cert.ReferenceIdeal.Gen Cert.ReferenceIdeal.Read Cert.DropoutLinear
open Idealize.ShloMosaic Idealize.ShloMosaic.ValueIdx

/-- The scaled mask stage at an index is the dropout factor of the draw there. -/
theorem keep_apply (x4 : (⟨S100000x128, .f32⟩ : BufTy).Contents (Elt Ideal)) (i : S100000x128.Idx) :
    val_main_v17 (F := Ideal) x4 i = keepFactor (x4 i) := by
  rw [val_main_v17_apply, val_main_v15_apply, val_main_v14_apply, val_main_v13_apply, val_main_cst_1_apply,
    val_main_v16_apply, val_main_cst_2_apply]
  rfl

/-- The reference's result is `dropLinear` of its scatter stage, the draws, its transpose stage and the bias. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S100000x128, .f32⟩ : BufTy).Contents (Elt Ideal))
    (x5 : (⟨S64x128, .f32⟩ : BufTy).Contents (Elt Ideal)) (x6 : (⟨S64, .f32⟩ : BufTy).Contents (Elt Ideal)) :
    val_main_v23 (F := Ideal) x0 x1 x2 x3 x4 x5 x6
      = dropLinear (val_main_v12 (F := Ideal) x0 x1 x2 x3) x4 (val_main_v19 (F := Ideal) x5) x6 := by
  funext i
  have el : ∀ k : Fin 128, lidx_main_v20 i k = ix2 (n0 := 100000) (n1 := 128) (i 0) k := fun k => funext fun a => Fin.ext (by
    match a with | ⟨0, _⟩ => rfl | ⟨1, _⟩ => rfl)
  have er : ∀ k : Fin 128, ridx_main_v20 i k = ix2 (n0 := 128) (n1 := 64) k (i 1) := fun k => funext fun a => Fin.ext (by
    match a with | ⟨0, _⟩ => rfl | ⟨1, _⟩ => rfl)
  have eb : idx_main_v21 (idx_main_v22 i) = ix1 (n := 64) (i 1) := funext fun a => Fin.ext (by
    match a with | ⟨0, _⟩ => rfl)
  rw [val_main_v23_apply, val_main_v20_apply, val_main_v22_apply, val_main_v21_apply, eb]
  refine congrArg₂ (· + ·) (Finset.sum_congr rfl fun k _ => ?_) rfl
  rw [el, er, val_main_v18_apply, keep_apply]
  rfl

end Cert.ReferenceIdeal.Hand

end
-- ==== Proof.Bridge.lean ====
/-
  The host operations both programs share. The kernel's aggregation and transposed weight are, operation for
  operation, the reference's scatter stage and transpose stage: the same gather, product, scatter-add and transpose
  with the same dimension numbers, so the two terms are one.
-/
import proofs.«156384_j3135326126431_1_alg».proof.Proof.KernelHost
import proofs.«156384_j3135326126431_1_alg».proof.Proof.Gen.ReferenceIdeal.Read

noncomputable section

namespace Cert.Bridge

open Idealize.ShloMosaic

/-- The kernel's aggregation is the reference's scatter stage. -/
theorem aggregate_eq (x0 : Cert.KernelIdeal.S100000x128.Idx → EReal) (x1 x2 : IVec Cert.KernelIdeal.S1600000 32)
    (x3 : Cert.KernelIdeal.S1600000.Idx → EReal) :
    Cert.KernelIdeal.Hand.aggregate x0 x1 x2 x3 = Cert.ReferenceIdeal.Read.val_main_v12 (F := Ideal) x0 x1 x2 x3 := by
  unfold Cert.KernelIdeal.Hand.aggregate Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

/-- The kernel's transposed weight is the reference's transpose stage. -/
theorem transposed_eq (x5 : Cert.KernelIdeal.S64x128.Idx → EReal) :
    transpose Cert.KernelIdeal.S128x64 [1, 0] x5 Cert.KernelIdeal.Gen.transposes_S64x128_S128x64_1_0
      = Cert.ReferenceIdeal.Read.val_main_v19 (F := Ideal) x5 := rfl

end Cert.Bridge

end
-- ==== Proof.lean ====
/- The proof of `Cert.Claim`: the kernel computes, after a sparse aggregation both programs do with the same host
   operations, out = (agg * keep(u)) · Wᵀ + b over ten row blocks, where keep(u) is the 0/1 dropout mask times a
   constant named 1/D; the reference computes the same with the mask divided by D, D = 7549747/8388608 being the
   single-precision value nearest 0.9. On the extended reals a division by a nonzero real is the product with its
   reciprocal, a matrix product from a zero accumulator is the plain sum over the contracted axis, and ten row blocks
   tile the result, so the two results are one function of the arguments, element by element. No finiteness of the
   inputs is used. The three frames are the generated ones (the reference's is its run with the result dropped);
   `preserves` is the named constant's statement. -/
import proofs.«156384_j3135326126431_1_alg».proof.Defs
import proofs.«156384_j3135326126431_1_alg».proof.Proof.Gen.Kernel
import proofs.«156384_j3135326126431_1_alg».proof.Proof.Gen.Kernel.Skeleton
import proofs.«156384_j3135326126431_1_alg».proof.Proof.Gen.Kernel.Launch
import proofs.«156384_j3135326126431_1_alg».proof.Proof.Gen.Kernel.Points
import proofs.«156384_j3135326126431_1_alg».proof.Proof.Gen.Kernel.Frame
import proofs.«156384_j3135326126431_1_alg».proof.Proof.Gen.KernelIdeal
import proofs.«156384_j3135326126431_1_alg».proof.Proof.Gen.KernelIdeal.Skeleton
import proofs.«156384_j3135326126431_1_alg».proof.Proof.Gen.KernelIdeal.Launch
import proofs.«156384_j3135326126431_1_alg».proof.Proof.Gen.KernelIdeal.Points
import proofs.«156384_j3135326126431_1_alg».proof.Proof.Gen.KernelIdeal.Frame
import proofs.«156384_j3135326126431_1_alg».proof.Proof.Gen.ReferenceIdeal
import proofs.«156384_j3135326126431_1_alg».proof.Proof.Gen.Pre_finite_inputs
import proofs.«156384_j3135326126431_1_alg».proof.Proof.Gen.KernelIdeal.Value
import proofs.«156384_j3135326126431_1_alg».proof.Proof.Gen.ReferenceIdeal.Run
import proofs.«156384_j3135326126431_1_alg».proof.Proof.Gen.ReferenceIdeal.Read
import proofs.«156384_j3135326126431_1_alg».proof.Proof.KernelRun
import proofs.«156384_j3135326126431_1_alg».proof.Proof.RefSpec
import proofs.«156384_j3135326126431_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The one ledger entry: the table gives the dropout scale's name the value 1/D. -/
theorem preserves : Cert.preserves_Kernel_KernelIdeal :=
  IdealRules.named_const.statement Cert.KernelIdeal.κ "inv_keep" .f32 0x3F8E38E4#32 ((8388608 / 7549747 : ℝ) : EReal) rfl

/-- Both runs end with the result array at `dropLinear` of the aggregation, the draws, the transposed weight and the
    bias: the kernel by its blocks, the reference by its stages read at an index; the shared host operations are the
    same terms. -/
theorem algebraic : Cert.algebraic_KernelIdeal_ReferenceIdeal := by
  intro m ρ m' ρ' _ hagree
  refine ⟨fun c => Cert.KernelIdeal.Hand.value m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v23_eq, Cert.ReferenceIdeal.Hand.result_eq,
    ← Cert.Bridge.aggregate_eq, ← Cert.Bridge.transposed_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
